-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S4096x64 : Shape := ⟨2, ![4096, 64]⟩
abbrev S64 : Shape := ⟨1, ![64]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S32768x4096 .f32) (main_arg1 : FVec F S4096x64 .f32) (main_arg2 : FVec F S64 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S32768x4096 : Shape := ⟨2, ![32768, 4096]⟩
abbrev S4096x64 : Shape := ⟨2, ![4096, 64]⟩
abbrev S64 : Shape := ⟨1, ![64]⟩
abbrev S1x64 : Shape := ⟨2, ![1, 64]⟩
abbrev S32768x64 : Shape := ⟨2, ![32768, 64]⟩
abbrev S64x1x128 : Shape := ⟨3, ![64, 1, 128]⟩
abbrev S64x1x1 : Shape := ⟨3, ![64, 1, 1]⟩
abbrev S_ : Shape := ⟨0, ![]⟩
abbrev S512x4096 : Shape := ⟨2, ![512, 4096]⟩
abbrev S512x64 : Shape := ⟨2, ![512, 64]⟩
abbrev S1x1x128 : Shape := ⟨3, ![1, 1, 128]⟩
abbrev S1x512x64 : Shape := ⟨3, ![1, 512, 64]⟩
abbrev S1 : Shape := ⟨1, ![1]⟩
abbrev S1x1x1 : Shape := ⟨3, ![1, 1, 1]⟩

abbrev nBuf : Space → Nat
  | .hbm => 13
  | .vmem => 8
  | .smem => 0
  | _ => 0

abbrev bufTy : (tb : Table) → Fin (tcTables nBuf tb) → BufTy
  | .hbm, ⟨0, _⟩ => ⟨S32768x4096, .f32⟩
  | .hbm, ⟨1, _⟩ => ⟨S4096x64, .f32⟩
  | .hbm, ⟨2, _⟩ => ⟨S64, .f32⟩
  | .hbm, ⟨3, _⟩ => ⟨S1x64, .f32⟩
  | .hbm, ⟨4, _⟩ => ⟨S4096x64, .bf16⟩
  | .hbm, ⟨5, _⟩ => ⟨S32768x64, .f32⟩
  | .hbm, ⟨6, _⟩ => ⟨S64x1x128, .f32⟩
  | .hbm, ⟨7, _⟩ => ⟨S64x1x1, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S512x4096, .f32⟩
  | .local _ .vmem, ⟨1, _⟩ => ⟨S512x4096, .f32⟩
  | .local _ .vmem, ⟨2, _⟩ => ⟨S4096x64, .bf16⟩
  | .local _ .vmem, ⟨3, _⟩ => ⟨S1x64, .f32⟩
  | .local _ .vmem, ⟨4, _⟩ => ⟨S512x64, .f32⟩
  | .local _ .vmem, ⟨5, _⟩ => ⟨S512x64, .f32⟩
  | .local _ .vmem, ⟨6, _⟩ => ⟨S1x1x128, .f32⟩
  | .local _ .vmem, ⟨7, _⟩ => ⟨S1x1x128, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_v0_0 : Ref sig .tc := ⟨.hbm, 5, rfl⟩
abbrev main_call0_v2_1 : Ref sig .tc := ⟨.hbm, 6, rfl⟩
abbrev main_call0_v3 : Ref sig .tc := ⟨.hbm, 7, rfl⟩
abbrev main_call0_v4 : Ref sig .tc := ⟨.hbm, 8, rfl⟩
abbrev main_call0_cst : Ref sig .tc := ⟨.hbm, 9, rfl⟩
abbrev main_call0_v5 : Ref sig .tc := ⟨.hbm, 10, rfl⟩
abbrev main_call0_cst_0 : Ref sig .tc := ⟨.hbm, 11, rfl⟩
abbrev main_v0_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64_S1x64 : S64.ShapeCasts S1x64
  bitsLt_bf16_f32 : FTy.bits .bf16 < FTy.bits .f32
  slices_S64x1x128_S64x1x1_0_0_0 : S64x1x128.Slices ![0, 0, 0] S64x1x1
  shapeCasts_S64x1x1_S64 : S64x1x1.ShapeCasts S64
  reducesTo_S64_S_d0 : S64.ReducesTo [0] S_
  h_S_ : 0 < S_.numel
  inb_S512x4096_S512x4096_0_0 : ∀ a, (![0, 0] : Fin 2 → Nat) a + S512x4096.size a ≤ S512x4096.size a
  h_S512x4096 : 0 < S512x4096.numel
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S512x64_S512x64_0_0 : ∀ a, (![0, 0] : Fin 2 → Nat) a + S512x64.size a ≤ S512x64.size a
  h_S512x64 : 0 < S512x64.numel
  natLt_1_32 : 1 < 32
  shapeCasts_S512x64_S1x512x64 : S512x64.ShapeCasts S1x512x64
  reduces_S1x512x64_S1 : S1x512x64.Reduces [1, 2] S1
  shapeCasts_S1_S1x1x1 : S1.ShapeCasts S1x1x1
  inpos_S1x1x1_p0_0_0 : ∀ a, (![0, 0, 0] : Fin 3 → Nat) a < S1x1x1.size a
  inb_S1x1x128_S1x1x128_0_0_0 : ∀ a, (![0, 0, 0] : Fin 3 → Nat) a + S1x1x128.size a ≤ S1x1x128.size a
  h_S1x1x128 : 0 < S1x1x128.numel
  dot_S512x4096_S4096x64_S512x64_1_0_0_1_n_n_wf : DotDims.WF S512x4096 S4096x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S32768x4096.size a
  hwx0_0 : ∀ i : grid0.Coords, EltTy.bits .f32 = 32 ∨ (Rect.block (s := S32768x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S4096x64.size a
  hwx0_1 : ∀ i : grid0.Coords, EltTy.bits .bf16 = 32 ∨ (Rect.block (s := S4096x64) S4096x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S32768x64.size a
  hwx0_3 : ∀ i : grid0.Coords, EltTy.bits .f32 = 32 ∨ (Rect.block (s := S32768x64) S512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S64x1x128.size a
  hwx0_4 : ∀ i : grid0.Coords, EltTy.bits .f32 = 32 ∨ (Rect.block (s := S64x1x128) S1x1x128.size (cc0_transform_4 i) (hinb0_4 i)).WholeWords (EltTy.packing .f32)

variable [Facts₀]

def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S4096x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2_1) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x4096 : Shape := ⟨2, ![32768, 4096]⟩
abbrev S4096x64 : Shape := ⟨2, ![4096, 64]⟩
abbrev S64 : Shape := ⟨1, ![64]⟩
abbrev S32768x64 : Shape := ⟨2, ![32768, 64]⟩
abbrev S1x64 : Shape := ⟨2, ![1, 64]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S4096x64, .f32⟩
  | .hbm, ⟨2, _⟩ => ⟨S64, .f32⟩
  | .hbm, ⟨3, _⟩ => ⟨S32768x64, .f32⟩
  | .hbm, ⟨4, _⟩ => ⟨S1x64, .f32⟩
  | .hbm, ⟨5, _⟩ => ⟨S32768x64, .f32⟩
  | .hbm, ⟨6, _⟩ => ⟨S32768x64, .f32⟩
  | .hbm, ⟨7, _⟩ => ⟨S_, .f32⟩
  | .hbm, ⟨8, _⟩ => ⟨S32768x64, .f32⟩
  | .hbm, ⟨9, _⟩ => ⟨S32768x64, .f32⟩
  | .hbm, ⟨10, _⟩ => ⟨S_, .f32⟩
  | .hbm, ⟨11, _⟩ => ⟨S32768x64, .f32⟩
  | .hbm, ⟨12, _⟩ => ⟨S32768x64, .f32⟩
  | .hbm, ⟨13, _⟩ => ⟨S_, .f32⟩
  | .hbm, ⟨14, _⟩ => ⟨S32768x64, .f32⟩
  | .hbm, ⟨15, _⟩ => ⟨S32768x64, .i1⟩
  | .hbm, ⟨16, _⟩ => ⟨S32768x64, .i32⟩
  | .hbm, ⟨17, _⟩ => ⟨S_, .i32⟩
  | .hbm, ⟨18, _⟩ => ⟨S_, .i32⟩
  | .hbm, ⟨19, _⟩ => ⟨S_, .f32⟩
  | .hbm, ⟨20, _⟩ => ⟨S_, .f32⟩
  | .hbm, ⟨21, _⟩ => ⟨S_, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_c : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  bcast_S_S32768x64 : S_.BroadcastsInDim S32768x64 (![] : Fin 0 → Fin S32768x64.rank)
  natLt_1_32 : 1 < 32
  reducesTo_S32768x64_S_d0_1 : S32768x64.ReducesTo [0, 1] S_
  h_S_ : 0 < S_.numel
  dot_S32768x4096_S4096x64_S32768x64_1_0_0_1_n_n_wf : DotDims.WF S32768x4096 S4096x64 S32768x64 [1] [0] [0] [1] [] []

variable [Facts₀]

def dot_S32768x4096_S4096x64_S32768x64_1_0_0_1_n_n : DotDims S32768x4096 S4096x64 S32768x64 where
  lhsContracting := [1]
  rhsContracting := [0]
  lhsNonContracting := [0]
  rhsNonContracting := [1]
  lhsBatch := []
  rhsBatch := []
  wf := dot_S32768x4096_S4096x64_S32768x64_1_0_0_1_n_n_wf

class Facts : Prop extends Facts₀ where

variable [Facts]
-- ==== Proof.LibIndicatorSums.lean ====
/-
  Sums of one-bit answers, for programs that count by adding indicators.

  A comparison's result is a one-bit word. A program counts the entries that pass a comparison either by widening each
  bit to a 32-bit word and adding the words, or by converting each widened bit to a float and adding the floats. Here:
  a widened bit read signed is the bit; its float at the extended reals is the bit as a real; a sum of naturals read as
  extended reals is the natural sum read so; the number of ones among one-bit words is the sum of the words read as 0 or 1,
  and is at most the number of words; for a value that is not negative "above zero" and "not zero" are one bit; a sum over
  T·P rows is the sum over T tiles of the sums over each tile's P rows; a sum over every entry of an array does not see a
  re-laying of the array into another shape with as many entries.
-/
import Idealize.ShloMosaic.PureOps.Ideal.Laws
import Idealize.ShloMosaic.Lib.ValueIdx
import Mathlib.Algebra.BigOperators.Fin
import Mathlib.Logic.Equiv.Fin.Basic

noncomputable section

open scoped BigOperators

namespace IndicatorSums

open Idealize.ShloMosaic

/-! ## One-bit answers -/

/-- A one-bit word widened to 32 bits and read as a signed integer is the bit. -/
theorem toInt_setWidth_bit : ∀ b : BitVec 1, (b.setWidth 32).toInt = (b.toNat : ℤ) := by decide

/-- A one-bit word is 1 exactly when its value is 1. -/
theorem toNat_bit : ∀ b : BitVec 1, b.toNat = if b = 1#1 then 1 else 0 := by decide

/-- Of a value that is not negative, "is above zero" and "is not zero" are one bit. -/
theorem cmp_ogt_eq_une {a : EReal} (h : 0 ≤ a) : Ideal.cmp .ogt a 0 = Ideal.cmp .une a 0 := by
  unfold Ideal.cmp
  congr 1
  by_cases h0 : a = 0
  · subst h0; simp
  · have : 0 < a := lt_of_le_of_ne h (Ne.symm h0)
    simp [this, h0]

/-- The float a kernel makes of a comparison's bit (widen to 32 bits, convert as signed) is the bit as a real. -/
theorem sitofp_bit (b : BitVec 1) : (FloatOps.sitofp (F := Ideal) .f32 (b.setWidth 32) : EReal) = ((b.toNat : ℝ) : EReal) := by
  show (((b.setWidth 32).toInt : ℝ) : EReal) = _
  rw [toInt_setWidth_bit]; norm_cast

/-! ## Sums -/

/-- A sum of naturals, each read as an extended real, is the natural sum read so. -/
theorem sum_coe_nat {ι : Type} (S : Finset ι) (n : ι → ℕ) : ∑ i ∈ S, (((n i : ℕ) : ℝ) : EReal) = (((∑ i ∈ S, n i : ℕ) : ℝ) : EReal) := by
  classical
  induction S using Finset.induction_on with
  | empty => simp
  | insert a S ha ih => rw [Finset.sum_insert ha, Finset.sum_insert ha, ih, Nat.cast_add, EReal.coe_add]

/-- A sum over T·P rows is the sum over T tiles of the sums over each tile's P rows, row P·t + p the p-th of tile t. -/
theorem sum_tiles {M : Type*} [AddCommMonoid M] (T P : ℕ) (g : Fin (T * P) → M) :
    ∑ r, g r = ∑ t : Fin T, ∑ p : Fin P, g ⟨P * t.val + p.val, by
      have h1 := t.isLt; have h2 := p.isLt
      calc P * t.val + p.val < P * t.val + P := by omega
        _ = P * (t.val + 1) := by ring
        _ ≤ P * T := Nat.mul_le_mul_left _ (by omega)
        _ = T * P := Nat.mul_comm _ _⟩ := by
  rw [← Equiv.sum_comp finProdFinEquiv g, Fintype.sum_prod_type]
  refine Finset.sum_congr rfl fun t _ => Finset.sum_congr rfl fun p _ => congrArg g (Fin.ext ?_)
  show p.val + P * t.val = P * t.val + p.val
  omega

/-- A sum over every entry does not see a re-laying of the array into another shape with as many entries. -/
theorem sum_shapeCast {s t : Shape} {M : Type} [AddCommMonoid M] (x : s.Idx → M) (h : s.ShapeCasts t) :
    ∑ j : t.Idx, shapeCast t x h j = ∑ k : s.Idx, x k :=
  Equiv.sum_comp (Shape.reshapeEquiv h) x

/-- The one-bit answers over an index set number at most the set. -/
theorem sum_toNat_le {ι : Type} [Fintype ι] (p : ι → BitVec 1) : ∑ i, (p i).toNat ≤ Fintype.card ι := by
  calc ∑ i, (p i).toNat ≤ ∑ _i : ι, 1 := Finset.sum_le_sum fun i _ => by have := (p i).isLt; omega
    _ = Fintype.card ι := by simp

/-- The number of ones among one-bit words over a set is the sum of the words read as 0 or 1. -/
theorem card_filter_eq_sum {ι : Type} (S : Finset ι) (p : ι → BitVec 1) :
    (S.filter fun k => p k = 1#1).card = ∑ k ∈ S, (p k).toNat := by
  rw [Finset.card_filter]
  exact Finset.sum_congr rfl fun k _ => (toNat_bit (p k)).symm

end IndicatorSums

end
-- ==== Proof.Spec.lean ====
/-
  The ReLU router, as mathematics over the extended reals.

  The logits: entry (r, e) is max(∑ₖ x[r,k]·w[k,e] + b[e], 0).
  The density: the number of nonzero logits divided by the constant the programs divide by (the pattern of 2²¹).

  Both programs count by adding indicators: the reference adds, as 32-bit words, the one-bit answers to "logit ≠ 0"
  over the whole array and converts the word to a float; the kernel adds, as floats, the converted one-bit answers to
  "logit > 0" over each tile of 512 rows, and the host then adds the 64 tile counts. This file states the count as a
  natural number (the sum of the one-bit answers read as 0 or 1) and proves the facts that join the two ways of counting:
  a float sum of converted bits is the natural count, a sum over the rows splits into tiles, for a value that is ≥ 0
  "≠ 0" and "> 0" are the same bit, and a count that fits 31 bits survives the trip through a signed 32-bit word.
-/
import Idealize.ShloMosaic.PureOps.Ideal.Laws
import Idealize.ShloMosaic.Lib.ValueIdx
import Idealize.ShloMosaic.Lib.IndicatorCount
import Idealize.ShloMosaic.Lib.WordArith
import proofs.«159866_g15109694947980_cont_week2b_1489_9_alg».proof.Proof.LibIndicatorSums

noncomputable section

open scoped BigOperators

namespace ReluRouter

open Idealize.ShloMosaic Idealize.ShloMosaic.ValueIdx

/-! ## The two results as functions of the arguments -/

/-- The logits: at (r, e), max(∑ₖ x[r,k]·w[k,e] + b[e], 0). -/
def logit (x : (⟨2, ![32768, 4096]⟩ : Shape).Idx → EReal) (w : (⟨2, ![4096, 64]⟩ : Shape).Idx → EReal)
    (b : (⟨1, ![64]⟩ : Shape).Idx → EReal) : (⟨2, ![32768, 64]⟩ : Shape).Idx → EReal :=
  fun i => max ((∑ k : Fin 4096, x (ix2 (n0 := 32768) (n1 := 4096) ⟨(i 0).val, (i 0).isLt⟩ k)
      * w (ix2 (n0 := 4096) (n1 := 64) k ⟨(i 1).val, (i 1).isLt⟩)) + b (ix1 (n := 64) ⟨(i 1).val, (i 1).isLt⟩)) 0

theorem logit_nonneg (x w b) (i) : 0 ≤ logit x w b i := le_max_right _ _

/-- How many entries of an array are nonzero: the one-bit answers to "≠ 0", each read as 0 or 1, added. -/
def nonzeros {ι : Type} [Fintype ι] (L : ι → EReal) : ℕ := ∑ i, (Ideal.cmp .une (L i) 0).toNat

/-- The density: the count of nonzero entries over the value of the pattern the programs divide by. -/
def density {ι : Type} [Fintype ι] (L : ι → EReal) : (⟨0, ![]⟩ : Shape).Idx → EReal :=
  fun _ => Ideal.div (((nonzeros L : ℕ) : ℝ) : EReal) (Ideal.ofBits .f32 0x4A000000#32)

/-! ## The counting laws (general facts about sums of one-bit answers) -/

export IndicatorSums (toInt_setWidth_bit toNat_bit cmp_ogt_eq_une sitofp_bit sum_coe_nat sum_tiles sum_shapeCast sum_toNat_le
  card_filter_eq_sum)

/-! ## Counting by tiles -/

/-- How many entries of an array are above zero: the one-bit answers to "> 0", each read as 0 or 1, added. -/
def positives {ι : Type} [Fintype ι] (P : ι → EReal) : ℕ := ∑ y, (Ideal.cmp .ogt (P y) 0).toNat

/-- The float sum a kernel takes of its converted "> 0" bits over a block is the block's count of positive entries. -/
theorem sum_sitofp_bits {ι : Type} [Fintype ι] (P : ι → EReal) :
    ∑ y, (FloatOps.sitofp (F := Ideal) .f32 ((Ideal.cmp .ogt (P y) 0).setWidth 32) : EReal)
      = (((positives P : ℕ) : ℝ) : EReal) := by
  unfold positives
  rw [← sum_coe_nat]
  exact Finset.sum_congr rfl fun y _ => sitofp_bit _

/-- Entry (p, e) of tile t of the logits is entry (512·t + p, e) of the array. -/
def tileIdx (t : Fin 64) (y : (⟨2, ![512, 64]⟩ : Shape).Idx) : (⟨2, ![32768, 64]⟩ : Shape).Idx :=
  ix2 (n0 := 32768) (n1 := 64) ⟨512 * t.val + (y 0).val, by have := t.isLt; have := idx2_lt0 y; omega⟩ ⟨(y 1).val, idx2_lt1 y⟩

/-- Of an array with no negative entry, the tiles' counts of positive entries add up to the count of nonzero entries. -/
theorem sum_positives_tiles (L : (⟨2, ![32768, 64]⟩ : Shape).Idx → EReal) (h : ∀ i, 0 ≤ L i) :
    ∑ t : Fin 64, positives (fun y => L (tileIdx t y)) = nonzeros L := by
  unfold nonzeros positives
  rw [sum_idx2 (n0 := 32768) (n1 := 64) (fun i => (Ideal.cmp .une (L i) 0).toNat)]
  rw [show (∑ a : Fin 32768, ∑ b : Fin 64, (Ideal.cmp .une (L (ix2 a b)) 0).toNat)
      = ∑ r : Fin (64 * 512), ∑ b : Fin 64, (Ideal.cmp .une (L (ix2 (n0 := 32768) (n1 := 64) r b)) 0).toNat from rfl]
  rw [sum_tiles 64 512]
  refine Finset.sum_congr rfl fun t _ => ?_
  rw [sum_idx2 (n0 := 512) (n1 := 64)]
  refine Finset.sum_congr rfl fun p _ => Finset.sum_congr rfl fun e _ => ?_
  rw [cmp_ogt_eq_une (h _)]
  rfl

/-- The logits have 2²¹ entries, so their count of nonzero entries fits a signed 32-bit word. -/
theorem nonzeros_lt (L : (⟨2, ![32768, 64]⟩ : Shape).Idx → EReal) : nonzeros L < 2 ^ 31 := by
  have h := sum_toNat_le (fun i => Ideal.cmp .une (L i) 0)
  have hc : Fintype.card ((⟨2, ![32768, 64]⟩ : Shape).Idx) = 32768 * 64 := by
    rw [Fintype.card_congr (idxEquiv2 (n0 := 32768) (n1 := 64)), Fintype.card_prod, Fintype.card_fin, Fintype.card_fin]
  unfold nonzeros
  omega

end ReluRouter

end
-- ==== Proof.RefSide.lean ====
/-
  The reference's two results are the logits and the density of this certificate's specification.

  The logits: the reference takes the maximum with zero twice, and max(max(z, 0), 0) = max(z, 0); its matrix product read
  at (r, e) is the sum over k of x[r,k]·w[k,e]; its bias is broadcast to a row and then down the rows.
  The density: the reference widens each one-bit answer to "logit ≠ 0" to 32 bits and adds them as words over the whole
  array, from zero: the word of the count of nonzero logits. The count is at most 2²¹, so the word read as a signed
  integer, which is how it is converted to a float, is the count itself.
-/
import proofs.«159866_g15109694947980_cont_week2b_1489_9_alg».proof.Proof.RefRead
import proofs.«159866_g15109694947980_cont_week2b_1489_9_alg».proof.Proof.Spec

noncomputable section

open scoped BigOperators
open Idealize.ShloMosaic Idealize.ShloMosaic.ValueIdx

namespace Cert.ReferenceIdeal.RefSide

open Cert.ReferenceIdeal Cert.ReferenceIdeal.Gen Cert.ReferenceIdeal.ReadCopy

/-- The reference's first result is the logits. -/
theorem logits_eq (x0 : S32768x4096.Idx → EReal) (x1 : S4096x64.Idx → EReal) (x2 : S64.Idx → EReal) :
    val_main_v7 (F := Ideal) x0 x1 x2 = ReluRouter.logit x0 x1 x2 := by
  funext i
  rw [val_main_v7_apply, val_main_v5_apply, val_main_v3_apply, val_main_v0_apply, val_main_v2_apply, val_main_v1_apply,
    val_main_v4_apply, val_main_v6_apply, val_main_cst_apply, val_main_cst_0_apply]
  show max (max ((∑ k : Fin 4096, x0 (lidx_main_v0 i k) * x1 (ridx_main_v0 i k)) + x2 (idx_main_v1 (idx_main_v2 i))) (Ideal.ofBits .f32 0x00000000#32)) (Ideal.ofBits .f32 0x00000000#32) = _
  rw [Ideal.ofBits_zero_f32, max_assoc, max_self]
  have el : ∀ k : Fin 4096, lidx_main_v0 i k = ix2 (n0 := 32768) (n1 := 4096) ⟨(i 0).val, (i 0).isLt⟩ k := fun k =>
    funext fun a => Fin.ext (by match a with | ⟨0, _⟩ => rfl | ⟨1, _⟩ => rfl)
  have er : ∀ k : Fin 4096, ridx_main_v0 i k = ix2 (n0 := 4096) (n1 := 64) k ⟨(i 1).val, (i 1).isLt⟩ := fun k =>
    funext fun a => Fin.ext (by match a with | ⟨0, _⟩ => rfl | ⟨1, _⟩ => rfl)
  have eb : idx_main_v1 (idx_main_v2 i) = ix1 (n := 64) ⟨(i 1).val, (i 1).isLt⟩ :=
    funext fun a => Fin.ext (by match a with | ⟨0, _⟩ => rfl)
  unfold ReluRouter.logit
  rw [eb]
  simp only [el, er]

/-- The reference's word of the count. -/
theorem count_word (x0 : S32768x4096.Idx → EReal) (x1 : S4096x64.Idx → EReal) (x2 : S64.Idx → EReal) (j : S_.Idx) :
    val_main_v8 (F := Ideal) x0 x1 x2 j = BitVec.ofNat 32 (ReluRouter.nonzeros (ReluRouter.logit x0 x1 x2)) := by
  have hp : ∀ i, val_main_call0_v1 (F := Ideal) x0 x1 x2 i = Ideal.cmp .une (ReluRouter.logit x0 x1 x2 i) 0 := fun i => by
    rw [val_main_call0_v1_apply, val_main_call0_v0_apply, val_main_call0_cst_apply, logits_eq]
    show Ideal.cmp .une _ (Ideal.ofBits .f32 0x00000000#32) = _
    rw [Ideal.ofBits_zero_f32]
  unfold val_main_v8 val_main_call0_v2 val_main_call0_c
  generalize val_main_call0_v1 (F := Ideal) x0 x1 x2 = p at hp ⊢
  rw [Host.reduce_eq_fold]
  have hall : (Finset.univ.filter fun i : S32768x64.Idx => reducesTo_S32768x64_S_d0_1.drop i = j) = Finset.univ :=
    Finset.filter_true_of_mem fun i _ => funext fun a => a.elim0
  rw [hall]
  show Finset.univ.fold IntOp.addi (0#32) (fun k => (p k).setWidth 32) = _
  rw [IndicatorCount.fold_addi_setWidth_eq_card, ReluRouter.card_filter_eq_sum]
  unfold ReluRouter.nonzeros
  exact congrArg (BitVec.ofNat 32) (Finset.sum_congr rfl fun i _ => by rw [hp i])

/-- The reference's second result is the density. -/
theorem density_eq (x0 : S32768x4096.Idx → EReal) (x1 : S4096x64.Idx → EReal) (x2 : S64.Idx → EReal) :
    val_main_v10 (F := Ideal) x0 x1 x2 = ReluRouter.density (ReluRouter.logit x0 x1 x2) := by
  funext j
  rw [val_main_v10_apply, val_main_v9_apply, val_main_cst_1_apply]
  show Ideal.div (((val_main_v8 (F := Ideal) x0 x1 x2 j).toInt : ℝ) : EReal) (Ideal.ofBits .f32 0x4A000000#32) = Ideal.div _ _
  rw [count_word, WordArith.toInt_ofNat_small _ (ReluRouter.nonzeros_lt _)]
  norm_cast

end Cert.ReferenceIdeal.RefSide

end
-- ==== Proof.LibPlainDot.lean ====
/-
  The matrix product of an M×K array with a K×N array, read at an output index (r, q), is the sum over the one
  contracted coordinate k of the left operand at (r, k) times the right operand at (k, q). Stated once for the plain
  dimension numbers (contract the left operand's last axis with the right operand's first, no batch axis), for a
  product into a zero accumulator inside a kernel body and for the host's product, both over the extended reals.
  A program's own dimension-number record of this form is equal to the plain one by unfolding.
-/
import Idealize.ShloMosaic.PureOps.Ideal.Laws
import Idealize.ShloMosaic.Lib.ValueIdx

noncomputable section

open scoped BigOperators

namespace PlainDot

open Idealize.ShloMosaic Idealize.ShloMosaic.ValueIdx

variable (M K N : Nat)

/-- The left operand's index at output index `j` and contraction index `q`: row of `j`, … -/
theorem lhs0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and the contracted coordinate. -/
theorem lhs1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: the contracted coordinate, … -/
theorem rhs0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the column of `j`. -/
theorem rhs1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum, re-indexed by the one contracted coordinate. -/
theorem sum_eq (x : (⟨2, ![M, K]⟩ : Shape).Idx → EReal) (w : (⟨2, ![K, N]⟩ : Shape).Idx → EReal) (j : (⟨2, ![M, N]⟩ : Shape).Idx) :
    ∑ q : (DotDims.plain M K N).contr.Idx, x ((DotDims.plain M K N).lhsIdx j q) * w ((DotDims.plain M K N).rhsIdx j q)
      = ∑ k : Fin K, x (ix2 (n0 := M) (n1 := K) ⟨(j 0).val, (j 0).isLt⟩ k) * w (ix2 (n0 := K) (n1 := N) k ⟨(j 1).val, (j 1).isLt⟩) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k)
      = ix2 (n0 := M) (n1 := K) ⟨(j 0).val, (j 0).isLt⟩ k := funext fun a => Fin.ext (by
    match a with
    | ⟨0, _⟩ => exact lhs0 M K N _ _
    | ⟨1, _⟩ => exact (lhs1 M K N _ _).trans hk)
  have er : (DotDims.plain M K N).rhsIdx j ((contrEquiv1 (DotDims.plain M K N) K rfl rfl).symm k)
      = ix2 (n0 := K) (n1 := N) k ⟨(j 1).val, (j 1).isLt⟩ := funext fun a => Fin.ext (by
    match a with
    | ⟨0, _⟩ => exact (rhs0 M K N _ _).trans hk
    | ⟨1, _⟩ => exact rhs1 M K N _ _)
  rw [el, er]

/-- A kernel's matrix product into the zero accumulator, at an index. -/
theorem matmul_zero_apply {φ₁ φ₂ : FTy} (x : FVec Ideal ⟨2, ![M, K]⟩ φ₁) (w : FVec Ideal ⟨2, ![K, N]⟩ φ₂) (j : (⟨2, ![M, N]⟩ : Shape).Idx) :
    FloatOps.matmul (DotDims.plain M K N) none x w (constant ⟨2, ![M, N]⟩ .f32 0x00000000#32) j
      = ∑ k : Fin K, x (ix2 (n0 := M) (n1 := K) ⟨(j 0).val, (j 0).isLt⟩ k) * w (ix2 (n0 := K) (n1 := N) k ⟨(j 1).val, (j 1).isLt⟩) := by
  rw [Ideal.matmul_constant_zero_apply]
  exact sum_eq M K N x w j

/-- The host's matrix product, at an index. -/
theorem dotGeneral_apply {φ₁ φ₂ : FTy} (sched : HostSchedule) (x : FVec Ideal ⟨2, ![M, K]⟩ φ₁) (w : FVec Ideal ⟨2, ![K, N]⟩ φ₂) (j : (⟨2, ![M, N]⟩ : Shape).Idx) :
    FloatOps.dotGeneral (DotDims.plain M K N) none sched x w j
      = ∑ k : Fin K, x (ix2 (n0 := M) (n1 := K) ⟨(j 0).val, (j 0).isLt⟩ k) * w (ix2 (n0 := K) (n1 := N) k ⟨(j 1).val, (j 1).isLt⟩) := by
  rw [Ideal.dotGeneral_apply]
  exact sum_eq M K N x w j

end PlainDot

end
-- ==== Proof.KernelBlock.lean ====
/-
  What the kernel body computes on one tile, at the extended reals.

  The first store's value, read at (p, e): max(∑ₖ x[p,k]·w[k,e] + b[0,e], 0), the tile's logits. The matrix product into a
  zero accumulator is the plain sum of products; the changes of float format are identities; the bias row is broadcast down
  the 512 rows; the constant compared against is the pattern of zero.
  The second store's value, at every lane: the number of the tile's logits that are above zero. The body converts each
  comparison bit to a float (0 or 1), lays the 512×64 block out as 1×512×64 (a re-indexing, which a sum over all entries does
  not see), sums over both long axes, and splats the one result across the 128 lanes.
-/
import proofs.«159866_g15109694947980_cont_week2b_1489_9_alg».proof.Proof.Gen.KernelIdeal.Skeleton
import proofs.«159866_g15109694947980_cont_week2b_1489_9_alg».proof.Proof.LibPlainDot
import proofs.«159866_g15109694947980_cont_week2b_1489_9_alg».proof.Proof.Spec
import Idealize.ShloMosaic.Lib.Pipeline.Value
import Idealize.ShloMosaic.Lib.ValueLayout

noncomputable section

open scoped BigOperators
open Idealize.ShloMosaic Idealize.ShloMosaic.ValueIdx

namespace Cert.KernelIdeal.Block

open Cert.KernelIdeal Cert.KernelIdeal.Gen

/-- The tile's logits at (p, e). -/
theorem logits_apply (v0 : Vec Ideal S512x4096 .f32) (v2 : Vec Ideal S4096x64 .bf16) (v5 : Vec Ideal S1x64 .f32) (p : Fin 512) (e : Fin 64) :
    (k0_pay1 v0 v2 v5 : S512x64.Idx → EReal) (ix2 p e)
      = max ((∑ k : Fin 4096, (v0 : S512x4096.Idx → EReal) (ix2 p k) * (v2 : S4096x64.Idx → EReal) (ix2 k e)) + (v5 : S1x64.Idx → EReal) (ix2 0 e)) 0 := by
  unfold k0_pay1
  show max (FloatOps.matmul (F := Ideal) (DotDims.plain 512 4096 64) none (truncf .bf16 v0 bitsLt_bf16_f32) (shapeCast S4096x64 v2 shapeCasts_S4096x64_S4096x64) (constant ⟨2, ![512, 64]⟩ .f32 0x00000000#32) (ix2 p e)
      + broadcastTo S512x64 (shapeCast S1x64 v5 shapeCasts_S1x64_S1x64) broadcasts_S1x64_S512x64 (ix2 p e)) (Ideal.ofBits .f32 0x00000000#32) = _
  rw [PlainDot.matmul_zero_apply, broadcastTo_1b_ab_apply, shapeCast_self, shapeCast_self, Ideal.ofBits_zero_f32]
  rfl

/-- The body's counting steps on any 512×64 block `P`: compare with a zero `z`, convert the bits, lay out as 1×512×64, sum over the
    two long axes, take the one entry, splat it: every lane holds the number of entries of `P` above zero. -/
theorem count_of (P : FVec Ideal S512x64 .f32) (z : Ideal .f32) (hz : z = (0 : EReal)) (hφ : FKind.Formats .f32)
    (hacc : (0x00000000#32 : BitVec 32) = FKind.add.neutral .f32 hφ) (y : S1x1x128.Idx) :
    broadcast S1x1x128 (extractAt ![0, 0, 0] (shapeCast S1x1x1 (multiReduction (F := Ideal) .add [1, 2] S1
        (shapeCast S1x512x64 (sitofp .f32 (extui 32 (cmpf .ogt P (broadcast S512x64 z)) natLt_1_32)) shapeCasts_S512x64_S1x512x64)
        0x00000000#32 reduces_S1x512x64_S1 hφ hacc) shapeCasts_S1_S1x1x1) inpos_S1x1x1_p0_0_0) y
      = (((ReluRouter.positives (P : S512x64.Idx → EReal) : ℕ) : ℝ) : EReal) := by
  subst hz
  rw [ValueIdx.broadcast_apply]
  unfold extractAt
  unfold shapeCast
  rw [Ideal.multiReduction_add_total _ _ _ (fun b => by fin_cases b; rfl)]
  exact (Equiv.sum_comp (Shape.reshapeEquiv shapeCasts_S512x64_S1x512x64) _).trans (ReluRouter.sum_sitofp_bits P)

/-- The tile's count of positive logits, in every lane of the second store's value. -/
theorem count_apply (v0 : Vec Ideal S512x4096 .f32) (v2 : Vec Ideal S4096x64 .bf16) (v5 : Vec Ideal S1x64 .f32) (y : S1x1x128.Idx) :
    (k0_pay2 v0 v2 v5 : S1x1x128.Idx → EReal) y
      = (((ReluRouter.positives (k0_pay1 v0 v2 v5 : S512x64.Idx → EReal) : ℕ) : ℝ) : EReal) := by
  unfold k0_pay2
  exact count_of (k0_pay1 v0 v2 v5) _ Ideal.ofBits_zero_f32 _ _ y

end Cert.KernelIdeal.Block

end
-- ==== Proof.KernelArrays.lean ====
/-
  The two arrays the kernel's region writes, after the run, as functions of the argument arrays.

  The region finds x as launched; the weights after the host's change of float format, which at the extended reals is the
  identity; the bias as a 1×64 row. Point t of the 64-point grid reads rows 512·t … 512·t + 511 of x and the whole of the
  weights and the bias row, and writes back block t of the logits array (rows 512·t … 512·t + 511, all 64 columns) and block t
  of the counts array (row t of 64×1×128). So block t of the logits array is the logits of those rows, block t of the counts
  array is tile t's count of positive logits in all 128 lanes, the 64 blocks cover each array, and the arrays end holding
  the logits and the tile counts.
-/
import proofs.«159866_g15109694947980_cont_week2b_1489_9_alg».proof.Proof.Gen.KernelIdeal.Frame
import proofs.«159866_g15109694947980_cont_week2b_1489_9_alg».proof.Proof.KernelBlock
import Idealize.ShloMosaic.Lib.Pipeline.Value
import Idealize.ShloMosaic.Lib.ValueLayout
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen

variable (m : (ℓ : Loc nD τ sig) → Buf (Elt Ideal) ℓ) (ρ : Dev nD → PrngReg)

/-- The three argument arrays on core `c`, as launched. -/
abbrev xArr (c : Dev nD) : S32768x4096.Idx → EReal := m ((c : Thread nD τ).loc main_arg0)
abbrev wArr (c : Dev nD) : S4096x64.Idx → EReal := m ((c : Thread nD τ).loc main_arg1)
abbrev bArr (c : Dev nD) : S64.Idx → EReal := m ((c : Thread nD τ).loc main_arg2)

/-- The logits of the argument arrays. -/
abbrev logits (c : Dev nD) : S32768x64.Idx → EReal := ReluRouter.logit (xArr m c) (wArr m c) (bArr m c)

/-- The counts array: row t holds, in every lane, tile t's count of positive logits. -/
def tileCounts (c : Dev nD) : S64x1x128.Idx → EReal :=
  fun i => (((ReluRouter.positives (fun y => logits m c (ReluRouter.tileIdx ⟨(i 0).val, (i 0).isLt⟩ y)) : ℕ) : ℝ) : EReal)

theorem hz2 : (![0, 0] : Fin 2 → Nat) = fun _ => 0 := funext fun a => by fin_cases a <;> rfl
theorem hz3 : (![0, 0, 0] : Fin 3 → Nat) = fun _ => 0 := funext fun a => by fin_cases a <;> rfl

/-- A grid point as a tile number. -/
def tile (t : Fin cfg0.N) : Fin 64 := ⟨t.val, lt_of_lt_of_eq t.isLt N_0⟩

/-! ## The arrays as the region finds them -/

/-- The weights window's array: the host's conversion of the weights, the identity at the extended reals. -/
theorem V_weights (c : Dev nD) : (V m c main_call0_v1 : S4096x64.Idx → EReal) = wArr m c := by
  show StableHlo.after hostOps0 (fun b => m (c, b)) (Proc.devRef .tc main_call0_v1) = _
  after_results
  rfl

/-- The bias window's array: the bias as one row. -/
theorem V_bias (c : Dev nD) : (V m c main_call0_v0 : S1x64.Idx → EReal) = shapeCast S1x64 (bArr m c) shapeCasts_S64_S1x64 := by
  show StableHlo.after hostOps0 (fun b => m (c, b)) (Proc.devRef .tc main_call0_v0) = _
  after_results
  rfl

/-! ## The windows' blocks -/

/-- The printed index maps over the grid: x's, the logits' and the counts' block index is the point; the weights' and the bias's is 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- x's block at point t is rows 512·t … of x. -/
theorem x_block (c : Dev nD) (t : Fin cfg0.N) (p : Fin 512) (k : Fin 4096) (r : Fin 32768) (hr : r.val = 512 * t.val + p.val) :
    (iblk m c 0 t : Vec Ideal S512x4096 .f32) (ix2 p k) = xArr m c (ix2 r k) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t 0 * 512 + 1 * p.val = r.val; rw [e0, hr]; omega
  | ⟨1, _⟩ => show win0_0.index t 1 * 4096 + 1 * k.val = k.val; rw [e1]; omega

/-- The weights' block at every point is the weights. -/
theorem w_block (c : Dev nD) (t : Fin cfg0.N) (k : Fin 4096) (e : Fin 64) :
    (iblk m c 1 t : Vec Ideal S4096x64 .bf16) (ix2 k e) = wArr m c (ix2 k e) := by
  obtain ⟨-, -, e2, e3, -⟩ := idx_facts t
  unfold iblk
  rw [View.read_apply]
  show V m c main_call0_v1 _ = _
  rw [V_weights]
  refine congrArg _ (funext fun a => Fin.ext ?_)
  match a with
  | ⟨0, _⟩ => show win0_1.index t 0 * 4096 + 1 * k.val = k.val; rw [e2]; omega
  | ⟨1, _⟩ => show win0_1.index t 1 * 64 + 1 * e.val = e.val; rw [e3]; omega

/-- The bias's block at every point is the bias row. -/
theorem b_block (c : Dev nD) (t : Fin cfg0.N) (e : Fin 64) :
    (iblk m c 2 t : Vec Ideal S1x64 .f32) (ix2 0 e) = bArr m c (ix1 e) := by
  obtain ⟨-, -, -, -, e4, e5, -⟩ := idx_facts t
  unfold iblk
  rw [View.read_apply]
  show V m c main_call0_v0 _ = _
  rw [V_bias]
  have hemb : ((cfg0.win 2).blk t).view.emb (ix2 (0 : Fin 1) e) = ix2 (0 : Fin 1) e := funext fun a => Fin.ext (by
    match a with
    | ⟨0, _⟩ => show win0_2.index t 0 * 1 + 1 * 0 = 0; rw [e4]
    | ⟨1, _⟩ => show win0_2.index t 1 * 64 + 1 * e.val = e.val; rw [e5]; omega)
  rw [hemb]
  exact shapeCast_a_1a_apply (bArr m c) shapeCasts_S64_S1x64 0 e

/-- The body's first value at point t is tile t of the logits. -/
theorem tile_logits (c : Dev nD) (t : Fin cfg0.N) :
    (k0_pay1 (iblk m c 0 t) (iblk m c 1 t) (iblk m c 2 t) : S512x64.Idx → EReal)
      = fun y => logits m c (ReluRouter.tileIdx (tile t) y) := by
  funext y
  obtain ⟨p, e, rfl⟩ : ∃ (p : Fin 512) (e : Fin 64), y = ix2 p e := ⟨y 0, y 1, eq_ix2 y⟩
  refine (Block.logits_apply (iblk m c 0 t) (iblk m c 1 t) (iblk m c 2 t) p e).trans ?_
  rw [b_block m c t e]
  simp only [w_block m c t]
  have hx : ∀ k : Fin 4096, (iblk m c 0 t : Vec Ideal S512x4096 .f32) (ix2 p k)
      = xArr m c (ix2 ⟨512 * (tile t).val + p.val, by have := (tile t).isLt; omega⟩ k) := fun k => x_block m c t p k _ rfl
  simp only [hx]
  rfl

/-! ## What each point writes back -/

/-- Point t writes back block t of the logits. -/
theorem flushed_logits (c : Dev nD) (t : Fin cfg0.N) :
    (dats m 0 c).flushed 3 t = ((cfg0.win 3).blk t).view.read (Elt Ideal) (logits m c) := by
  show (cfg0.win 3).cut (grid0.coords t) ((dats m 0 c).after 3 t) = _
  rw [after0_3]
  unfold out0_3
  rw [View.canon_unit_zero hz2]
  simp only [View.ld_unit_zero (S := S512x4096) hz2, View.ld_unit_zero (S := S4096x64) hz2, View.ld_unit_zero (S := S1x64) hz2]
  rw [tile_logits]
  obtain ⟨-, -, -, -, -, -, e6, e7, -⟩ := idx_facts t
  funext j
  show logits m c (ReluRouter.tileIdx (tile t) j) = logits m c (((cfg0.win 3).blk t).view.emb j)
  refine congrArg _ (funext fun a => Fin.ext ?_)
  match a with
  | ⟨0, _⟩ => show 512 * t.val + (j 0).val = win0_3.index t 0 * 512 + 1 * (j 0).val; rw [e6]; omega
  | ⟨1, _⟩ => show (j 1).val = win0_3.index t 1 * 64 + 1 * (j 1).val; rw [e7]; omega

/-- Point t writes back block t of the tile counts. -/
theorem flushed_counts (c : Dev nD) (t : Fin cfg0.N) :
    (dats m 0 c).flushed 4 t = ((cfg0.win 4).blk t).view.read (Elt Ideal) (tileCounts m c) := by
  show (cfg0.win 4).cut (grid0.coords t) ((dats m 0 c).after 4 t) = _
  rw [after0_4]
  unfold out0_4
  rw [View.canon_unit_zero hz3]
  simp only [View.ld_unit_zero (S := S512x4096) hz2, View.ld_unit_zero (S := S4096x64) hz2, View.ld_unit_zero (S := S1x64) hz2]
  obtain ⟨-, -, -, -, -, -, -, -, e8, -⟩ := idx_facts t
  funext j
  refine (Block.count_apply (iblk m c 0 t) (iblk m c 1 t) (iblk m c 2 t) j).trans ?_
  rw [tile_logits]
  show _ = tileCounts m c (((cfg0.win 4).blk t).view.emb j)
  unfold tileCounts
  have ht : (⟨((((cfg0.win 4).blk t).view.emb j) 0).val, ((((cfg0.win 4).blk t).view.emb j) 0).isLt⟩ : Fin 64) = tile t :=
    Fin.ext (by
      show win0_4.index t 0 * 1 + 1 * (j 0).val = t.val
      have hj : (j 0).val < 1 := (j 0).isLt
      rw [e8]; omega)
  rw [ht]

/-! ## The blocks cover the arrays -/

/-- An index of the logits array is in point t's block iff each coordinate is in the block's range on its axis. -/
theorem mem_blk_logits (t : Fin cfg0.N) (i : S32768x64.Idx) :
    i ∈ ((cfg0.win 3).blk t).view.set ↔ ∀ a : Fin 2, win0_3.index t a * S512x64.size a ≤ (i a).val ∧ (i a).val < win0_3.index t a * S512x64.size a + S512x64.size a := by
  show i ∈ ((View.whole main_v0_0).slice (win0_3.rect t)).set ↔ _
  rw [View.set_slice_whole, Rect.mem_set_unit]
  exact Iff.rfl

/-- Row r of the logits array is in the block of point r / 512. -/
theorem cover_logits (i : S32768x64.Idx) : ∃ t : Fin cfg0.N, (cfg0.win 3).flush t = true ∧ i ∈ ((cfg0.win 3).blk t).view.set := by
  have hi0 : (i 0).val < 32768 := (i 0).isLt
  have hi1 : (i 1).val < 64 := (i 1).isLt
  have hN : cfg0.N = 64 := N_0
  let t : Fin cfg0.N := ⟨(i 0).val / 512, by rw [hN]; omega⟩
  obtain ⟨-, -, -, -, -, -, e6, e7, -⟩ := idx_facts t
  refine ⟨t, flush0_3 t, ?_⟩
  rw [mem_blk_logits]
  intro a
  match a with
  | ⟨0, _⟩ => show win0_3.index t 0 * 512 ≤ (i 0).val ∧ (i 0).val < win0_3.index t 0 * 512 + 512
              rw [e6]; show (i 0).val / 512 * 512 ≤ (i 0).val ∧ (i 0).val < (i 0).val / 512 * 512 + 512; omega
  | ⟨1, _⟩ => show win0_3.index t 1 * 64 ≤ (i 1).val ∧ (i 1).val < win0_3.index t 1 * 64 + 64; rw [e7]; omega

/-- An index of the counts array is in point t's block iff each coordinate is in the block's range on its axis. -/
theorem mem_blk_counts (t : Fin cfg0.N) (i : S64x1x128.Idx) :
    i ∈ ((cfg0.win 4).blk t).view.set ↔ ∀ a : Fin 3, win0_4.index t a * S1x1x128.size a ≤ (i a).val ∧ (i a).val < win0_4.index t a * S1x1x128.size a + S1x1x128.size a := by
  show i ∈ ((View.whole main_call0_v2_1).slice (win0_4.rect t)).set ↔ _
  rw [View.set_slice_whole, Rect.mem_set_unit]
  exact Iff.rfl

/-- Row t of the counts array is point t's block. -/
theorem cover_counts (i : S64x1x128.Idx) : ∃ t : Fin cfg0.N, (cfg0.win 4).flush t = true ∧ i ∈ ((cfg0.win 4).blk t).view.set := by
  have hi0 : (i 0).val < 64 := (i 0).isLt
  have hi1 : (i 1).val < 1 := (i 1).isLt
  have hi2 : (i 2).val < 128 := (i 2).isLt
  have hN : cfg0.N = 64 := N_0
  let t : Fin cfg0.N := ⟨(i 0).val, by rw [hN]; exact hi0⟩
  obtain ⟨-, -, -, -, -, -, -, -, e8, e9, e10⟩ := idx_facts t
  refine ⟨t, flush0_4 t, ?_⟩
  rw [mem_blk_counts]
  intro a
  match a with
  | ⟨0, _⟩ => show win0_4.index t 0 * 1 ≤ (i 0).val ∧ (i 0).val < win0_4.index t 0 * 1 + 1
              rw [e8]; show (i 0).val * 1 ≤ (i 0).val ∧ (i 0).val < (i 0).val * 1 + 1; omega
  | ⟨1, _⟩ => show win0_4.index t 1 * 1 ≤ (i 1).val ∧ (i 1).val < win0_4.index t 1 * 1 + 1; rw [e9]; omega
  | ⟨2, _⟩ => show win0_4.index t 2 * 128 ≤ (i 2).val ∧ (i 2).val < win0_4.index t 2 * 128 + 128; rw [e10]; omega

/-! ## The arrays after the run -/

/-- The logits array ends holding the logits. -/
theorem final_logits (c : Dev nD) : (dats m 0 c).arrAt 3 cfg0.N = logits m c :=
  (dats m 0 c).arrAt_eq_of_cover 3 (logits m c) (fun t _ => flushed_logits m c t) cover_logits

/-- The counts array ends holding the tile counts. -/
theorem final_counts (c : Dev nD) : (dats m 0 c).arrAt 4 cfg0.N = tileCounts m c :=
  (dats m 0 c).arrAt_eq_of_cover 4 (tileCounts m c) (fun t _ => flushed_counts m c t) cover_counts

end Cert.KernelIdeal.Arrays

end
-- ==== Proof.KernelRun.lean ====
/-
  The idealized kernel's run, read: its two results as functions of its arguments.

  The host's lines after the region: from the counts array to the density.

  They take lane 0 of each of the 64 rows of the counts array, lay the 64 values out as a vector, add them up from zero and
  divide by the constant. Each row holds a tile's count of positive logits as a real number, so the sum is the total of the
  tile counts, which is the count of nonzero logits because no logit is negative.
-/
import proofs.«159866_g15109694947980_cont_week2b_1489_9_alg».proof.Proof.KernelArrays
import Idealize.ShloMosaic.Lib.ValueIdxRank1

noncomputable section

open scoped BigOperators
open Idealize.ShloMosaic Idealize.ShloMosaic.TcCoe Idealize.SL.Sem Idealize.ShloMosaic.ValueIdx
open Idealize.ShloMosaic.Pipeline (Dat)

namespace Cert.KernelIdeal.Tail

open Cert.KernelIdeal Cert.KernelIdeal.Gen Cert.KernelIdeal.Arrays

/-- The host's last lines on any counts array whose row t holds the natural number n t in lane 0: the sum of the n t over
    the constant. -/
theorem density_of_counts (cnt : S64x1x128.Idx → EReal) (n : Fin 64 → ℕ)
    (hc : ∀ t : Fin 64, cnt (ix3 t (0 : Fin 1) (0 : Fin 128)) = (((n t : ℕ) : ℝ) : EReal)) (j : S_.Idx) :
    Host.divf (Host.reduceAdd (F := Ideal) (shapeCast S64 (extractStridedSlice S64x1x1 ![0, 0, 0] cnt slices_S64x1x128_S64x1x1_0_0_0) shapeCasts_S64x1x1_S64)
        (constant S_ .f32 0x00000000#32) reducesTo_S64_S_d0 h_S_) (constant S_ .f32 0x4A000000#32) j
      = Ideal.div ((((∑ t, n t : ℕ)) : ℝ) : EReal) (Ideal.ofBits .f32 0x4A000000#32) := by
  have hrow : ∀ t : Fin 64, shapeCast S64 (extractStridedSlice S64x1x1 ![0, 0, 0] cnt slices_S64x1x128_S64x1x1_0_0_0) shapeCasts_S64x1x1_S64 (ix1 t)
      = (((n t : ℕ) : ℝ) : EReal) := fun t => by
    rw [shapeCast_apply _ shapeCasts_S64x1x1_S64 (ix1 t) (ix3 t (0 : Fin 1) (0 : Fin 1)) (by
      rw [Shape.rowMajor_val_three, Shape.rowMajor_val_one]; show (t.val * 1 + 0) * 1 + 0 = t.val; omega)]
    rw [extractStridedSlice_apply ![0, 0, 0] cnt slices_S64x1x128_S64x1x1_0_0_0 (ix3 t (0 : Fin 1) (0 : Fin 1)) (ix3 t (0 : Fin 1) (0 : Fin 128)) (fun a => by
      match a with
      | ⟨0, _⟩ => exact (Nat.zero_add _).symm
      | ⟨1, _⟩ => exact (Nat.zero_add _).symm
      | ⟨2, _⟩ => exact (Nat.zero_add _).symm)]
    exact hc t
  show Ideal.div (Host.reduceAdd (F := Ideal) _ (constant S_ .f32 0x00000000#32) reducesTo_S64_S_d0 h_S_ j) (Ideal.ofBits .f32 0x4A000000#32) = _
  congr 1
  simp only [Host.reduceAdd, Ideal.hostReduceAdd_def]
  rw [Ideal.hostReduceAdd_total reducesTo_S64_S_d0 (fun b => b.elim0)]
  show Ideal.ofBits .f32 0x00000000#32 + _ = _
  rw [Ideal.ofBits_zero_f32, zero_add, ← ReluRouter.sum_coe_nat, ← Equiv.sum_comp (idxEquiv1 (n := 64)).symm]
  exact Finset.sum_congr rfl fun t _ => hrow t

variable (m : (ℓ : Loc nD τ sig) → Buf (Elt Ideal) ℓ) (ρ : Dev nD → PrngReg)

/-- After the host's last lines the second result holds the density of the logits. -/
theorem density_tail (c : Dev nD) :
    Pipeline.afterTail₀ cfgs (dats m) 0 (V0 m) [hostOps1] c main_v0_1 = ReluRouter.density (logits m c) := by
  unfold Pipeline.afterTail₀
  show StableHlo.after hostOps1 _ (Proc.devRef .tc main_v0_1) = _
  after_results
  have hw : Pipeline.withArrays (cfgs 0).spec c (V0 m c) (fun w => (dats m 0 c).arrAt w (cfgs 0).N) (Proc.devRef .tc main_call0_v2_1)
      = tileCounts m c :=
    (Pipeline.withArrays_arr spec0 launch0.win.arr_inj c _ _ 4).trans (final_counts m c)
  show Host.divf (Host.reduceAdd (F := Ideal) (shapeCast S64 (extractStridedSlice S64x1x1 ![0, 0, 0]
      (Pipeline.withArrays (cfgs 0).spec c (V0 m c) (fun w => (dats m 0 c).arrAt w (cfgs 0).N) (Proc.devRef .tc main_call0_v2_1))
      slices_S64x1x128_S64x1x1_0_0_0) shapeCasts_S64x1x1_S64) (constant S_ .f32 0x00000000#32) reducesTo_S64_S_d0 h_S_)
      (constant S_ .f32 0x4A000000#32) = _
  rw [hw]
  funext j
  refine (density_of_counts (tileCounts m c) (fun t => ReluRouter.positives (fun y => logits m c (ReluRouter.tileIdx t y)))
    (fun t => rfl) j).trans ?_
  unfold ReluRouter.density
  rw [ReluRouter.sum_positives_tiles _ (fun i => ReluRouter.logit_nonneg _ _ _ i)]

end Cert.KernelIdeal.Tail

namespace Cert.KernelIdeal.Run

open Cert.KernelIdeal Cert.KernelIdeal.Gen Cert.KernelIdeal.Arrays

variable (m : (ℓ : Loc nD τ sig) → Buf (Elt Ideal) ℓ) (ρ : Dev nD → PrngReg)

/-- Every weakly fair execution of the idealized kernel's program terminates with the first result at the logits of the
    arguments (the logits array after the region), the second at their density (what the host's last lines make of the
    counts array), and the arguments unchanged: the generated frame run with its arrays named. -/
theorem run : θ_run defs (onTc (τ := τ) (main (F := Ideal))) ⟨m, fun _ => 0, ρ⟩ (fun r => ∀ c : Dev nD,
      r.2.mem ((c.tc : Thread nD τ).loc main_v0_0) = logits m c
      ∧ r.2.mem ((c.tc : Thread nD τ).loc main_v0_1) = ReluRouter.density (logits m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 3).trans (final_logits m c),
      ((h c).2 main_v0_1 (Pipeline.mem_restRefs_of main_v0_1 (by decide) (by decide))).trans (Tail.density_tail m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Run

end
-- ==== Proof.lean ====
/-
  The ReLU router kernel against its jnp reference, over the extended reals.

  Both programs return the logits max(x·W + b, 0) and the activation density, the fraction of nonzero logits.
  The kernel computes the logits tile by tile (512 rows a tile, one matrix product per tile into a zero accumulator), and per
  tile the number of logits above zero as a float sum of 0/1 values; the host adds the 64 tile counts and divides by 2²¹.
  The reference computes the logits in one matrix product, takes the maximum with zero twice, counts the nonzero logits
  as a 32-bit integer sum of 0/1 words, converts the count to a float and divides by 2²¹.
  They agree because a matrix product read at an entry is the same sum of products on both sides, max(max(z,0),0) = max(z,0),
  a logit is never negative so "above zero" and "not zero" are the same, the rows split into the 64 tiles, a sum of 0/1
  values is a count, and a count of at most 2²¹ fits a signed 32-bit word. No finiteness is needed: the same extended-real
  expressions stand on both sides.

  The three frames: the kernel's and the idealized kernel's are the generated frame certificates; the reference's is its
  run with the results dropped. The ideal pass rewrote nothing, so the idealization claim is trivial.
-/
import proofs.«159866_g15109694947980_cont_week2b_1489_9_alg».proof.Defs
import proofs.«159866_g15109694947980_cont_week2b_1489_9_alg».proof.Proof.Gen.Kernel
import proofs.«159866_g15109694947980_cont_week2b_1489_9_alg».proof.Proof.Gen.Kernel.Skeleton
import proofs.«159866_g15109694947980_cont_week2b_1489_9_alg».proof.Proof.Gen.Kernel.Launch
import proofs.«159866_g15109694947980_cont_week2b_1489_9_alg».proof.Proof.Gen.Kernel.Points
import proofs.«159866_g15109694947980_cont_week2b_1489_9_alg».proof.Proof.Gen.Kernel.Frame
import proofs.«159866_g15109694947980_cont_week2b_1489_9_alg».proof.Proof.Gen.KernelIdeal
import proofs.«159866_g15109694947980_cont_week2b_1489_9_alg».proof.Proof.Gen.KernelIdeal.Skeleton
import proofs.«159866_g15109694947980_cont_week2b_1489_9_alg».proof.Proof.Gen.KernelIdeal.Launch
import proofs.«159866_g15109694947980_cont_week2b_1489_9_alg».proof.Proof.Gen.KernelIdeal.Points
import proofs.«159866_g15109694947980_cont_week2b_1489_9_alg».proof.Proof.Gen.KernelIdeal.Frame
import proofs.«159866_g15109694947980_cont_week2b_1489_9_alg».proof.Proof.Gen.ReferenceIdeal
import proofs.«159866_g15109694947980_cont_week2b_1489_9_alg».proof.Proof.Gen.Pre_finite_inputs
import proofs.«159866_g15109694947980_cont_week2b_1489_9_alg».proof.Proof.RefSide
import proofs.«159866_g15109694947980_cont_week2b_1489_9_alg».proof.Proof.KernelRun
import Idealize.ShloMosaic.Adequacy
import Idealize.ShloMosaic.Init

noncomputable section

namespace Cert.Proof

open Idealize.ShloMosaic Idealize.SL.Sem

/-- The kernel runs and keeps its arguments: the generated frame certificate. -/
theorem frame_kernel : Cert.frame_Kernel := fun m ρ _ => Cert.Kernel.Gen.frame m ρ

/-- The idealized kernel runs and keeps its arguments: the generated frame certificate. -/
theorem frame_kernelIdeal : Cert.frame_KernelIdeal := fun m ρ _ => Cert.KernelIdeal.Gen.frame m ρ

/-- The reference runs and keeps its arguments: its run with the two results dropped. -/
theorem frame_reference : Cert.frame_ReferenceIdeal := fun m ρ _ =>
  (θ_run Cert.ReferenceIdeal.defs _ _).mono (fun _ h c => (h c).2.2) (Cert.ReferenceIdeal.RunCopy.run (F := Ideal) m ρ)

/-- Run from memories that agree on x, W and b, the kernel ends with the logits and the density of its arguments, and
    the reference with the logits and the density of the same arrays. -/
theorem algebraic : Cert.algebraic_KernelIdeal_ReferenceIdeal := by
  intro m ρ m' ρ' _ hagree
  refine ⟨fun c => Cert.KernelIdeal.Arrays.logits m c, fun c => ReluRouter.density (Cert.KernelIdeal.Arrays.logits m c),
    Cert.KernelIdeal.Run.run m ρ, ?_⟩
  refine (θ_run Cert.ReferenceIdeal.defs _ _).mono (fun _ h c => ?_) (Cert.ReferenceIdeal.RunCopy.run (F := Ideal) m' ρ')
  obtain ⟨h7, h10, ha0, ha1, ha2⟩ := h c
  obtain ⟨e0, e1, e2⟩ := hagree c
  refine ⟨h7.trans ?_, h10.trans ?_, ha0, ha1, ha2⟩
  · rw [Cert.ReferenceIdeal.ReadCopy.val_main_v7_eq, Cert.ReferenceIdeal.RefSide.logits_eq, e0, e1, e2]
  · rw [Cert.ReferenceIdeal.ReadCopy.val_main_v10_eq, Cert.ReferenceIdeal.RefSide.density_eq, e0, e1, e2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
